-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S2048x2048 : Shape := ⟨2, ![2048, 2048]⟩
abbrev S2048 : Shape := ⟨1, ![2048]⟩
abbrev S16x2048 : Shape := ⟨2, ![16, 2048]⟩
abbrev S2048x16 : Shape := ⟨2, ![2048, 16]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S16x2048 : S_.BroadcastsInDim S16x2048 (![] : Fin 0 → Fin S16x2048.rank)
  reducesTo_S16x2048_S_d0_1 : S16x2048.ReducesTo [0, 1] S_
  bcast_S_S2048x16 : S_.BroadcastsInDim S2048x16 (![] : Fin 0 → Fin S2048x16.rank)
  reducesTo_S2048x16_S_d0_1 : S2048x16.ReducesTo [0, 1] S_
  reducesTo_S_S_d : S_.ReducesTo [] S_

variable [Facts]

def fn_part1 {F : FTy → Type} [FloatOps F] (main_arg4 : FVec F S2048x16 .f32) (main_arg5 : FVec F S_ .f32) (main_v13 : IVec S_ 1) (main_v16 : IVec S16x2048 1) : IVec S_ 1 :=
  let main_c_5 : IVec S_ 1 := constantI S_ 1 1#1
  let main_v17 : IVec S_ 1 := (fun x v => Host.reduce IntOp.andi x v reducesTo_S16x2048_S_d0_1 h_S_) main_v16 main_c_5
  let main_v18 : IVec S_ 1 := andi main_v13 main_v17
  let main_v19 : FVec F S2048x16 .f32 := Host.absf main_arg4
  let main_cst_6 : FVec F S_ .f32 := constant S_ .f32 0x7F800000#32
  let main_v20 : FVec F S2048x16 .f32 := broadcastInDim S2048x16 ![] bcast_S_S2048x16 main_cst_6
  let main_v21 : IVec S2048x16 1 := cmpf .olt main_v19 main_v20
  let main_c_7 : IVec S_ 1 := constantI S_ 1 1#1
  let main_v22 : IVec S_ 1 := (fun x v => Host.reduce IntOp.andi x v reducesTo_S2048x16_S_d0_1 h_S_) main_v21 main_c_7
  let main_v23 : IVec S_ 1 := andi main_v18 main_v22
  let main_v24 : FVec F S_ .f32 := Host.absf main_arg5
  let main_cst_8 : FVec F S_ .f32 := constant S_ .f32 0x7F800000#32
  let main_v25 : IVec S_ 1 := cmpf .olt main_v24 main_cst_8
  let main_c_9 : IVec S_ 1 := constantI S_ 1 1#1
  let main_v26 : IVec S_ 1 := (fun x v => Host.reduce IntOp.andi x v reducesTo_S_S_d h_S_) main_v25 main_c_9
  let main_v27 : IVec S_ 1 := andi main_v23 main_v26
  main_v27

def fn {F : FTy → Type} [FloatOps F] (main_arg0 : FVec F S4x2048x2048 .f32) (main_arg1 : FVec F S2048x2048 .f32) (main_arg2 : FVec F S2048 .f32) (main_arg3 : FVec F S16x2048 .f32) (main_arg4 : FVec F S2048x16 .f32) (main_arg5 : FVec F S_ .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S16x2048 .f32 := Host.absf main_arg3
  let main_cst_4 : FVec F S_ .f32 := constant S_ .f32 0x7F800000#32
  let main_v15 : FVec F S16x2048 .f32 := broadcastInDim S16x2048 ![] bcast_S_S16x2048 main_cst_4
  let main_v16 : IVec S16x2048 1 := cmpf .olt main_v14 main_v15
  fn_part1 (F := F) main_arg4 main_arg5 main_v13 main_v16
-- ==== Kernel.lean ====
abbrev S4x2048x2048 : Shape := ⟨3, ![4, 2048, 2048]⟩
abbrev S2048x2048 : Shape := ⟨2, ![2048, 2048]⟩
abbrev S2048 : Shape := ⟨1, ![2048]⟩
abbrev S16x2048 : Shape := ⟨2, ![16, 2048]⟩
abbrev S2048x16 : Shape := ⟨2, ![2048, 16]⟩
abbrev S_ : Shape := ⟨0, ![]⟩
abbrev S8192x2048 : Shape := ⟨2, ![8192, 2048]⟩
abbrev S128x2048 : Shape := ⟨2, ![128, 2048]⟩
abbrev S1x2048 : Shape := ⟨2, ![1, 2048]⟩
abbrev S128x16 : Shape := ⟨2, ![128, 16]⟩

abbrev nBuf : Space → Nat
  | .hbm => 11
  | .vmem => 8
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048, .f32⟩
  | .hbm, ⟨3, _⟩ => ⟨S16x2048, .f32⟩
  | .hbm, ⟨4, _⟩ => ⟨S2048x16, .f32⟩
  | .hbm, ⟨5, _⟩ => ⟨S_, .f32⟩
  | .hbm, ⟨6, _⟩ => ⟨S8192x2048, .f32⟩
  | .hbm, ⟨7, _⟩ => ⟨S2048x16, .f32⟩
  | .hbm, ⟨8, _⟩ => ⟨S2048x16, .f32⟩
  | .hbm, ⟨9, _⟩ => ⟨S8192x2048, .f32⟩
  | .hbm, ⟨10, _⟩ => ⟨S4x2048x2048, .f32⟩
  | .local _ .vmem, ⟨0, _⟩ => ⟨S128x2048, .f32⟩
  | .local _ .vmem, ⟨1, _⟩ => ⟨S128x2048, .f32⟩
  | .local _ .vmem, ⟨2, _⟩ => ⟨S2048x2048, .f32⟩
  | .local _ .vmem, ⟨3, _⟩ => ⟨S2048, .f32⟩
  | .local _ .vmem, ⟨4, _⟩ => ⟨S16x2048, .f32⟩
  | .local _ .vmem, ⟨5, _⟩ => ⟨S2048x16, .f32⟩
  | .local _ .vmem, ⟨6, _⟩ => ⟨S128x2048, .f32⟩
  | .local _ .vmem, ⟨7, _⟩ => ⟨S128x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4x2048x2048_S8192x2048 : S4x2048x2048.ShapeCasts S8192x2048
  bcast_S_S2048x16 : S_.BroadcastsInDim S2048x16 (![] : Fin 0 → Fin S2048x16.rank)
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  bitsLt_bf16_f32 : FTy.bits .bf16 < FTy.bits .f32
  inb_S2048x2048_S2048x2048_0_0 : ∀ a, (![0, 0] : Fin 2 → Nat) a + S2048x2048.size a ≤ S2048x2048.size a
  h_S2048x2048 : 0 < S2048x2048.numel
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S128x2048 : S1x2048.Broadcasts S128x2048
  inb_S16x2048_S16x2048_0_0 : ∀ a, (![0, 0] : Fin 2 → Nat) a + S16x2048.size a ≤ S16x2048.size a
  h_S16x2048 : 0 < S16x2048.numel
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  shapeCasts_S8192x2048_S4x2048x2048 : S8192x2048.ShapeCasts S4x2048x2048
  dot_S128x2048_S2048x2048_S128x2048_1_1_0_0_n_n_wf : DotDims.WF S128x2048 S2048x2048 S128x2048 [1] [1] [0] [0] [] []
  dot_S128x2048_S16x2048_S128x16_1_1_0_0_n_n_wf : DotDims.WF S128x2048 S16x2048 S128x16 [1] [1] [0] [0] [] []
  dot_S128x16_S2048x16_S128x2048_1_1_0_0_n_n_wf : DotDims.WF S128x16 S2048x16 S128x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S8192x2048.size a
  hwx0_0 : ∀ i : grid0.Coords, EltTy.bits .f32 = 32 ∨ (Rect.block (s := S8192x2048) S128x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .f32 = 32 ∨ (Rect.block (s := S2048x2048) S2048x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S2048.size a
  hwx0_2 : ∀ i : grid0.Coords, EltTy.bits .f32 = 32 ∨ (Rect.block (s := S2048) S2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x2048.size a ≤ S16x2048.size a
  hwx0_3 : ∀ i : grid0.Coords, EltTy.bits .f32 = 32 ∨ (Rect.block (s := S16x2048) S16x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x16.size a ≤ S2048x16.size a
  hwx0_4 : ∀ i : grid0.Coords, EltTy.bits .f32 = 32 ∨ (Rect.block (s := S2048x16) S2048x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x2048.size a ≤ S8192x2048.size a
  hwx0_5 : ∀ i : grid0.Coords, EltTy.bits .f32 = 32 ∨ (Rect.block (s := S8192x2048) S128x2048.size (cc0_transform_5 i) (hinb0_5 i)).WholeWords (EltTy.packing .f32)

variable [Facts₀]

def dot_S128x2048_S2048x2048_S128x2048_1_1_0_0_n_n : DotDims S128x2048 S2048x2048 S128x2048 where
  lhsContracting := [1]
  rhsContracting := [1]
  lhsNonContracting := [0]
  rhsNonContracting := [0]
  lhsBatch := []
  rhsBatch := []
  wf := dot_S128x2048_S2048x2048_S128x2048_1_1_0_0_n_n_wf
def dot_S128x2048_S16x2048_S128x16_1_1_0_0_n_n : DotDims S128x2048 S16x2048 S128x16 where
  lhsContracting := [1]
  rhsContracting := [1]
  lhsNonContracting := [0]
  rhsNonContracting := [0]
  lhsBatch := []
  rhsBatch := []
  wf := dot_S128x2048_S16x2048_S128x16_1_1_0_0_n_n_wf
def dot_S128x16_S2048x16_S128x2048_1_1_0_0_n_n : DotDims S128x16 S2048x16 S128x2048 where
  lhsContracting := [1]
  rhsContracting := [1]
  lhsNonContracting := [0]
  rhsNonContracting := [0]
  lhsBatch := []
  rhsBatch := []
  wf := dot_S128x16_S2048x16_S128x2048_1_1_0_0_n_n_wf

abbrev win0_0 : Pipeline.Window sig grid0 :=
  Pipeline.Window.ofSpec (Memref.whole main_v0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S2048x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S128x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x2048 : Shape := ⟨3, ![4, 2048, 2048]⟩
abbrev S2048x2048 : Shape := ⟨2, ![2048, 2048]⟩
abbrev S2048 : Shape := ⟨1, ![2048]⟩
abbrev S16x2048 : Shape := ⟨2, ![16, 2048]⟩
abbrev S2048x16 : Shape := ⟨2, ![2048, 16]⟩
abbrev S_ : Shape := ⟨0, ![]⟩
abbrev S1x1x2048 : Shape := ⟨3, ![1, 1, 2048]⟩
abbrev S4x2048x16 : Shape := ⟨3, ![4, 2048, 16]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048, .f32⟩
  | .hbm, ⟨3, _⟩ => ⟨S16x2048, .f32⟩
  | .hbm, ⟨4, _⟩ => ⟨S2048x16, .f32⟩
  | .hbm, ⟨5, _⟩ => ⟨S_, .f32⟩
  | .hbm, ⟨6, _⟩ => ⟨S4x2048x2048, .f32⟩
  | .hbm, ⟨7, _⟩ => ⟨S1x1x2048, .f32⟩
  | .hbm, ⟨8, _⟩ => ⟨S4x2048x2048, .f32⟩
  | .hbm, ⟨9, _⟩ => ⟨S4x2048x2048, .f32⟩
  | .hbm, ⟨10, _⟩ => ⟨S4x2048x16, .f32⟩
  | .hbm, ⟨11, _⟩ => ⟨S4x2048x2048, .f32⟩
  | .hbm, ⟨12, _⟩ => ⟨S4x2048x2048, .f32⟩
  | .hbm, ⟨13, _⟩ => ⟨S4x2048x2048, .f32⟩
  | .hbm, ⟨14, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S4x2048x2048_0_1_2 : S1x1x2048.BroadcastsInDim S4x2048x2048 (![0, 1, 2] : Fin 3 → Fin S4x2048x2048.rank)
  bcast_S_S4x2048x2048 : S_.BroadcastsInDim S4x2048x2048 (![] : Fin 0 → Fin S4x2048x2048.rank)
  dot_S4x2048x2048_S2048x2048_S4x2048x2048_2_1_01_0_n_n_wf : DotDims.WF S4x2048x2048 S2048x2048 S4x2048x2048 [2] [1] [0, 1] [0] [] []
  dot_S4x2048x2048_S16x2048_S4x2048x16_2_1_01_0_n_n_wf : DotDims.WF S4x2048x2048 S16x2048 S4x2048x16 [2] [1] [0, 1] [0] [] []
  dot_S4x2048x16_S2048x16_S4x2048x2048_2_1_01_0_n_n_wf : DotDims.WF S4x2048x16 S2048x16 S4x2048x2048 [2] [1] [0, 1] [0] [] []

variable [Facts₀]

def dot_S4x2048x2048_S2048x2048_S4x2048x2048_2_1_01_0_n_n : DotDims S4x2048x2048 S2048x2048 S4x2048x2048 where
  lhsContracting := [2]
  rhsContracting := [1]
  lhsNonContracting := [0, 1]
  rhsNonContracting := [0]
  lhsBatch := []
  rhsBatch := []
  wf := dot_S4x2048x2048_S2048x2048_S4x2048x2048_2_1_01_0_n_n_wf
def dot_S4x2048x2048_S16x2048_S4x2048x16_2_1_01_0_n_n : DotDims S4x2048x2048 S16x2048 S4x2048x16 where
  lhsContracting := [2]
  rhsContracting := [1]
  lhsNonContracting := [0, 1]
  rhsNonContracting := [0]
  lhsBatch := []
  rhsBatch := []
  wf := dot_S4x2048x2048_S16x2048_S4x2048x16_2_1_01_0_n_n_wf
def dot_S4x2048x16_S2048x16_S4x2048x2048_2_1_01_0_n_n : DotDims S4x2048x16 S2048x16 S4x2048x2048 where
  lhsContracting := [2]
  rhsContracting := [1]
  lhsNonContracting := [0, 1]
  rhsNonContracting := [0]
  lhsBatch := []
  rhsBatch := []
  wf := dot_S4x2048x16_S2048x16_S4x2048x2048_2_1_01_0_n_n_wf

class Facts : Prop extends Facts₀ where

variable [Facts]
-- ==== Proof.LibMatmulNT.lean ====
/-
  A matrix product whose right operand is given transposed, read at an index at the ideal instance. The left operand is
  `R × K`, the right operand `N × K`, and both are contracted along their last axis, so the entry at `(r, j)` pairs row
  `r` of the left operand with row `j` of the right one: into a zero accumulator the product reads
  `∑ k, lhs (r, k) * rhs (j, k)`. There are no batch axes, so no other row of either operand enters an entry, which is
  why the rows of the left operand may be cut into blocks freely.
-/
import Idealize.ShloMosaic.PureOps.Ideal.Laws
import Idealize.ShloMosaic.Lib.ValueIdx

noncomputable section

open scoped BigOperators

namespace Cert.MatmulNT

open Idealize.ShloMosaic Idealize.ShloMosaic.ValueIdx

variable {R K N : ℕ} {φ₁ φ₂ : FTy}

/-- Dimension numbers are determined by their six lists: a record with the lists of a product contracted along both last
    axes is the library's `DotDims.transposedRhs`. -/
theorem eq_transposedRhs (d : DotDims ⟨2, ![R, K]⟩ ⟨2, ![N, K]⟩ ⟨2, ![R, N]⟩)
    (hlc : d.lhsContracting = [(1 : Fin 2)]) (hrc : d.rhsContracting = [(1 : Fin 2)])
    (hln : d.lhsNonContracting = [(0 : Fin 2)]) (hrn : d.rhsNonContracting = [(0 : Fin 2)])
    (hlb : d.lhsBatch = []) (hrb : d.rhsBatch = []) : d = DotDims.transposedRhs R K N := by
  obtain ⟨lc, rc, ln, rn, lb, rb, wf⟩ := d
  simp only at hlc hrc hln hrn hlb hrb
  subst hlc hrc hln hrn hlb hrb
  rfl

/-- The contraction shape has one axis, -/
theorem contr_rank : (DotDims.transposedRhs R K N).contr.rank = 1 := rfl
/-- of extent `K`. -/
theorem contr_size : (DotDims.transposedRhs R K N).contr.size ⟨0, by rw [contr_rank]; exact Nat.one_pos⟩ = K := rfl

/-- The left index's row is the result's row, -/
theorem lhs_row (j : (⟨2, ![R, N]⟩ : Shape).Idx) (q : (DotDims.transposedRhs R K N).contr.Idx) :
    ((DotDims.transposedRhs R K N).lhsIdx j q (0 : Fin 2)).val = (j (0 : Fin 2)).val := by
  unfold DotDims.lhsIdx
  rw [dif_neg (show ¬(0 : Fin 2) ∈ (DotDims.transposedRhs R K N).lhsBatch from List.not_mem_nil),
    dif_pos (show (0 : Fin 2) ∈ (DotDims.transposedRhs R K N).lhsNonContracting from List.mem_singleton.mpr rfl)]
  rfl
/-- its column the contraction position; -/
theorem lhs_col (j : (⟨2, ![R, N]⟩ : Shape).Idx) (q : (DotDims.transposedRhs R K N).contr.Idx) :
    ((DotDims.transposedRhs R K N).lhsIdx j q (1 : Fin 2)).val = (q ⟨0, by rw [contr_rank]; exact Nat.one_pos⟩).val :=
  (DotDims.transposedRhs R K N).lhsIdx_val_of_single rfl j q
/-- the right index's row is the result's column, -/
theorem rhs_row (j : (⟨2, ![R, N]⟩ : Shape).Idx) (q : (DotDims.transposedRhs R K N).contr.Idx) :
    ((DotDims.transposedRhs R K N).rhsIdx j q (0 : Fin 2)).val = (j (1 : Fin 2)).val := by
  unfold DotDims.rhsIdx
  rw [dif_neg (show ¬(0 : Fin 2) ∈ (DotDims.transposedRhs R K N).rhsBatch from List.not_mem_nil),
    dif_pos (show (0 : Fin 2) ∈ (DotDims.transposedRhs R K N).rhsNonContracting from List.mem_singleton.mpr rfl)]
  rfl
/-- and its column the contraction position again. -/
theorem rhs_col (j : (⟨2, ![R, N]⟩ : Shape).Idx) (q : (DotDims.transposedRhs R K N).contr.Idx) :
    ((DotDims.transposedRhs R K N).rhsIdx j q (1 : Fin 2)).val = (q ⟨0, by rw [contr_rank]; exact Nat.one_pos⟩).val :=
  (DotDims.transposedRhs R K N).rhsIdx_val_of_single rfl j q

/-- The product into the zero accumulator at `(r, j)`: row `r` of the left operand against row `j` of the right. -/
theorem transposedRhs_apply (prec : Option ContractPrecision) (lhs : FVec Ideal ⟨2, ![R, K]⟩ φ₁)
    (rhs : FVec Ideal ⟨2, ![N, K]⟩ φ₂) (r : Fin R) (j : Fin N) :
    FloatOps.matmul (DotDims.transposedRhs R K N) prec lhs rhs (constant ⟨2, ![R, N]⟩ .f32 0x00000000#32) (ix2 r j)
      = ∑ k : Fin K, lhs (ix2 r k) * rhs (ix2 j k) := by
  rw [Ideal.matmul_constant_zero_apply,
    ← Equiv.sum_comp (contrEquiv1 (DotDims.transposedRhs R K N) K contr_rank contr_size).symm]
  refine Finset.sum_congr rfl fun k _ => ?_
  have hk := contrEquiv1_symm_val (DotDims.transposedRhs R K N) K contr_rank contr_size k
  have el : (DotDims.transposedRhs R K N).lhsIdx (ix2 r j)
      ((contrEquiv1 (DotDims.transposedRhs R K N) K contr_rank contr_size).symm k) = ix2 r k :=
    funext fun a => Fin.ext (by
      match a with
      | ⟨0, _⟩ => exact lhs_row _ _
      | ⟨1, _⟩ => exact (lhs_col _ _).trans hk)
  have er : (DotDims.transposedRhs R K N).rhsIdx (ix2 r j)
      ((contrEquiv1 (DotDims.transposedRhs R K N) K contr_rank contr_size).symm k) = ix2 j k :=
    funext fun a => Fin.ext (by
      match a with
      | ⟨0, _⟩ => exact rhs_row _ _
      | ⟨1, _⟩ => exact (rhs_col _ _).trans hk)
  rw [el, er]

/-- The same for any record with those dimension numbers (a printed program names its own), stated for the vector
    operation `matmul` a printed kernel body applies. -/
theorem matmul_apply (d : DotDims ⟨2, ![R, K]⟩ ⟨2, ![N, K]⟩ ⟨2, ![R, N]⟩)
    (hlc : d.lhsContracting = [(1 : Fin 2)]) (hrc : d.rhsContracting = [(1 : Fin 2)])
    (hln : d.lhsNonContracting = [(0 : Fin 2)]) (hrn : d.rhsNonContracting = [(0 : Fin 2)])
    (hlb : d.lhsBatch = []) (hrb : d.rhsBatch = [])
    (prec : Option ContractPrecision) (lhs : FVec Ideal ⟨2, ![R, K]⟩ φ₁) (rhs : FVec Ideal ⟨2, ![N, K]⟩ φ₂)
    (r : Fin R) (j : Fin N) :
    matmul d prec lhs rhs (constant ⟨2, ![R, N]⟩ .f32 0x00000000#32) (ix2 r j)
      = ∑ k : Fin K, lhs (ix2 r k) * rhs (ix2 j k) := by
  rw [eq_transposedRhs d hlc hrc hln hrn hlb hrb]
  exact transposedRhs_apply prec lhs rhs r j

end Cert.MatmulNT

end
-- ==== Proof.Spec.lean ====
/-
  The function both programs compute, entry by entry, over the extended reals.

  A row `xr` of the flattened input (2048 numbers) meets row `o` of the weight matrix `W`, the bias entry `b o`, and the
  low-rank pair: `h r = ∑ k, xr k * A (r, k)` for the 16 rows of `A`, then `∑ r, h r * B (o, r)`, the whole scaled by `s`.
  One program multiplies `B` by `s` before the product (`scaledInside`), the other multiplies the finished sum by `s`
  (`scaledOutside`). Pulling a factor out of a sum is distributivity, which on the extended reals fails when terms of
  both infinite signs meet; for finite `xr`, `A`, `B` and `s` every term is a real number and the two agree
  (`scaledInside_eq_scaledOutside`). `W` and `b` enter both sides the same way and need no finiteness.
-/
import Idealize.ShloMosaic.PureOps.Ideal.Laws
import Idealize.ShloMosaic.Lib.ValueIdx

noncomputable section

open scoped BigOperators

namespace Cert.Lora

open Idealize.ShloMosaic Idealize.ShloMosaic.ValueIdx

/-- An extended real that is a real number. -/
def IsReal (x : EReal) : Prop := ∃ a : ℝ, x = (a : EReal)

/-- The coercion from the reals commutes with a finite sum. -/
theorem coe_sum {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A finite sum of products of real numbers is a real number. -/
theorem isReal_sum_mul {ι : Type} [Fintype ι] (f g : ι → EReal) (hf : ∀ k, IsReal (f k)) (hg : ∀ k, IsReal (g k)) :
    IsReal (∑ k, f k * g k) := by
  choose f' ef using hf
  choose g' eg using hg
  refine ⟨∑ k, f' k * g' k, ?_⟩
  rw [coe_sum]
  exact Finset.sum_congr rfl fun k _ => by rw [ef k, eg k, EReal.coe_mul]

/-- A real factor common to every term of a finite sum of real products comes out of the sum. -/
theorem sum_mul_scale {ι : Type} [Fintype ι] (h B : ι → EReal) (s : EReal)
    (hh : ∀ r, IsReal (h r)) (hB : ∀ r, IsReal (B r)) (hs : IsReal s) :
    ∑ r, h r * (B r * s) = (∑ r, h r * B r) * s := by
  choose h' eh using hh
  choose B' eB using hB
  obtain ⟨s', rfl⟩ := hs
  have e1 : ∑ r, h r * (B r * (s' : EReal)) = ((∑ r, h' r * (B' r * s') : ℝ) : EReal) := by
    rw [coe_sum]
    exact Finset.sum_congr rfl fun r _ => by rw [eh r, eB r, EReal.coe_mul, EReal.coe_mul]
  have e2 : ∑ r, h r * B r = ((∑ r, h' r * B' r : ℝ) : EReal) := by
    rw [coe_sum]
    exact Finset.sum_congr rfl fun r _ => by rw [eh r, eB r, EReal.coe_mul]
  rw [e1, e2, ← EReal.coe_mul, Finset.sum_mul]
  exact congrArg _ (Finset.sum_congr rfl fun r _ => by ring)

abbrev SW : Shape := ⟨2, ![2048, 2048]⟩
abbrev Sb : Shape := ⟨1, ![2048]⟩
abbrev SA : Shape := ⟨2, ![16, 2048]⟩
abbrev SB : Shape := ⟨2, ![2048, 16]⟩

/-- The entry at output column `o` with `B` already scaled (`Bs (o, r)` standing for `B (o, r) * s`). -/
def scaledInside (xr : Fin 2048 → EReal) (W : SW.Idx → EReal) (b : Sb.Idx → EReal) (A : SA.Idx → EReal)
    (Bs : SB.Idx → EReal) (o : Fin 2048) : EReal :=
  (∑ k : Fin 2048, xr k * W (ix2 o k) + b (ix1 o)) + ∑ r : Fin 16, (∑ k : Fin 2048, xr k * A (ix2 r k)) * Bs (ix2 o r)

/-- The entry at output column `o` with the low-rank sum scaled at the end. -/
def scaledOutside (xr : Fin 2048 → EReal) (W : SW.Idx → EReal) (b : Sb.Idx → EReal) (A : SA.Idx → EReal)
    (B : SB.Idx → EReal) (s : EReal) (o : Fin 2048) : EReal :=
  (∑ k : Fin 2048, xr k * W (ix2 o k) + b (ix1 o)) + (∑ r : Fin 16, (∑ k : Fin 2048, xr k * A (ix2 r k)) * B (ix2 o r)) * s

/-- For finite `xr`, `A`, `B` and `s` the two are one number. -/
theorem scaledInside_eq_scaledOutside (xr : Fin 2048 → EReal) (W : SW.Idx → EReal) (b : Sb.Idx → EReal)
    (A : SA.Idx → EReal) (B : SB.Idx → EReal) (s : EReal) (o : Fin 2048)
    (hx : ∀ k, IsReal (xr k)) (hA : ∀ i, IsReal (A i)) (hB : ∀ i, IsReal (B i)) (hs : IsReal s) :
    scaledInside xr W b A (fun j => B j * s) o = scaledOutside xr W b A B s o := by
  unfold scaledInside scaledOutside
  exact congrArg _ (sum_mul_scale (fun r => ∑ k : Fin 2048, xr k * A (ix2 r k)) (fun r => B (ix2 o r)) s
    (fun r => isReal_sum_mul _ _ hx fun k => hA _) (fun r => hB _) hs)

abbrev Sx : Shape := ⟨3, ![4, 2048, 2048]⟩
abbrev Sx2 : Shape := ⟨2, ![8192, 2048]⟩
abbrev S0 : Shape := ⟨0, ![]⟩

/-- The result array: entry `(a, t, o)` comes from row `(a, t, ·)` of `x`. -/
def result (x : Sx.Idx → EReal) (W : SW.Idx → EReal) (b : Sb.Idx → EReal) (A : SA.Idx → EReal) (B : SB.Idx → EReal)
    (s : S0.Idx → EReal) : Sx.Idx → EReal :=
  fun i => scaledOutside (fun k => x (ix3 (i 0 : Fin 4) (i 1 : Fin 2048) k)) W b A B (s ix0) (i 2 : Fin 2048)

theorem result_apply (x : Sx.Idx → EReal) (W : SW.Idx → EReal) (b : Sb.Idx → EReal) (A : SA.Idx → EReal)
    (B : SB.Idx → EReal) (s : S0.Idx → EReal) (a : Fin 4) (t : Fin 2048) (o : Fin 2048) :
    result x W b A B s (ix3 a t o) = scaledOutside (fun k => x (ix3 a t k)) W b A B (s ix0) o := rfl

/-- The same over the flattened rows, `B` already scaled: entry `(n, o)` comes from row `n` of `x2`. -/
def rowsResult (x2 : Sx2.Idx → EReal) (W : SW.Idx → EReal) (b : Sb.Idx → EReal) (A : SA.Idx → EReal)
    (Bs : SB.Idx → EReal) : Sx2.Idx → EReal :=
  fun j => scaledInside (fun k => x2 (ix2 (j 0 : Fin 8192) k)) W b A Bs (j 1 : Fin 2048)

theorem rowsResult_apply (x2 : Sx2.Idx → EReal) (W : SW.Idx → EReal) (b : Sb.Idx → EReal) (A : SA.Idx → EReal)
    (Bs : SB.Idx → EReal) (n : Fin 8192) (o : Fin 2048) :
    rowsResult x2 W b A Bs (ix2 n o) = scaledInside (fun k => x2 (ix2 n k)) W b A Bs o := rfl

end Cert.Lora

end
-- ==== Proof.Payload.lean ====
/-
  What the kernel body stores, entry by entry, at the ideal instance.

  The body loads a block of 128 rows of the flattened input together with all of `W`, `b`, `A` and the scaled `B`; it forms
  three matrix products, each with the right operand given transposed, adds the bias row to the first and the third
  product to that. A change of float format is the identity at the ideal instance and a shape cast to the same shape
  changes nothing, so entry `(p, q)` of the stored block is `Lora.scaledInside` of row `p` of the loaded block at output
  column `q`: no other row of the block enters it.
-/
import proofs.«123970_j74887049773417_1_alg».proof.Proof.Gen.KernelIdeal.Skeleton
import proofs.«123970_j74887049773417_1_alg».proof.Proof.LibMatmulNT
import proofs.«123970_j74887049773417_1_alg».proof.Proof.Spec
import Idealize.ShloMosaic.Lib.ValueLayout

noncomputable section

open scoped BigOperators

namespace Cert.KernelIdeal.Body

open Idealize.ShloMosaic Idealize.ShloMosaic.ValueIdx Cert.KernelIdeal Cert.KernelIdeal.Gen

/-- The stored block at `(p, q)`. -/
theorem pay_apply (x0 : Vec Ideal S128x2048 .f32) (x1 : Vec Ideal S2048x2048 .f32) (x2 : Vec Ideal S2048 .f32)
    (x3 : Vec Ideal S16x2048 .f32) (x4 : Vec Ideal S2048x16 .f32) (p : Fin 128) (q : Fin 2048) :
    k0_pay1 (F := Ideal) x0 x1 x2 x3 x4 (ix2 p q) = Cert.Lora.scaledInside (fun k => x0 (ix2 p k)) x1 x2 x3 x4 q := by
  unfold k0_pay1
  rw [shapeCast_self, shapeCast_self, addf_apply, addf_apply,
    Cert.MatmulNT.matmul_apply dot_S128x2048_S2048x2048_S128x2048_1_1_0_0_n_n rfl rfl rfl rfl rfl rfl,
    Cert.MatmulNT.matmul_apply dot_S128x16_S2048x16_S128x2048_1_1_0_0_n_n rfl rfl rfl rfl rfl rfl,
    broadcastTo_1b_ab_apply, shapeCast_a_1a_apply]
  simp only [truncf_apply,
    Cert.MatmulNT.matmul_apply dot_S128x2048_S16x2048_S128x16_1_1_0_0_n_n rfl rfl rfl rfl rfl rfl]
  rfl

end Cert.KernelIdeal.Body

end
-- ==== Proof.KernelValue.lean ====
/-
  From the kernel's blocks to its whole output array, and through the host operations around the region.

  The grid has 64 points. At point `t` the first window holds rows `128 t … 128 t + 127` of the flattened input, the other
  four input windows hold their whole arrays, and the output window's block is rows `128 t … 128 t + 127` of the output. By
  `Body.pay_apply` row `p` of the stored block depends on row `p` of the loaded block only, so the block point `t` writes back
  is block `t` of ONE array, `Lora.rowsResult` of the arrays as the region finds them; the 64 blocks cover the output, which
  therefore ends holding that array. Before the region the host flattens `x` and multiplies `B` by the scalar; after it the
  host gives the output its three axes back.
-/
import proofs.«123970_j74887049773417_1_alg».proof.Proof.Gen.KernelIdeal.Frame
import proofs.«123970_j74887049773417_1_alg».proof.Proof.Payload
import Idealize.ShloMosaic.Lib.Pipeline.Value
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the first window and the output move one block of rows per point, the other
    windows stay on their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The first window's block at point `t`: entry `(p, k)` is entry `(128 t + p, k)` of the flattened input. -/
theorem xblk_apply (c : Dev nD) (t : Fin cfg0.N) (p : Fin 128) (k : Fin 2048) (n : Fin 8192)
    (hn : n.val = 128 * t.val + p.val) :
    (iblk m c 0 t : S128x2048.Idx → EReal) (ix2 p k) = (V m c main_v0 : S8192x2048.Idx → EReal) (ix2 n k) := by
  obtain ⟨e00, e01, -⟩ := idx_facts t
  show V m c main_v0 (((cfg0.win 0).blk t).view.emb (ix2 p k)) = V m c main_v0 (ix2 n k)
  refine congrArg _ (funext fun a => Fin.ext ?_)
  match a with
  | ⟨0, _⟩ => show win0_0.index t (0 : Fin 2) * 128 + 1 * p.val = n.val; rw [e00, hn]; omega
  | ⟨1, _⟩ => show win0_0.index t (1 : Fin 2) * 2048 + 1 * k.val = k.val; rw [e01]; omega

/-- The other input windows hold their whole arrays at every point. -/
theorem wblk_eq (c : Dev nD) (t : Fin cfg0.N) :
    (iblk m c 1 t : S2048x2048.Idx → EReal) = (V m c main_arg1 : S2048x2048.Idx → EReal) := by
  obtain ⟨-, -, e10, e11, -⟩ := idx_facts t
  funext y
  show V m c main_arg1 (((cfg0.win 1).blk t).view.emb y) = V m c main_arg1 y
  refine congrArg _ (funext fun a => Fin.ext ?_)
  match a with
  | ⟨0, _⟩ => show win0_1.index t (0 : Fin 2) * 2048 + 1 * (y 0).val = (y 0).val; rw [e10]; omega
  | ⟨1, _⟩ => show win0_1.index t (1 : Fin 2) * 2048 + 1 * (y 1).val = (y 1).val; rw [e11]; omega
theorem bblk_eq (c : Dev nD) (t : Fin cfg0.N) :
    (iblk m c 2 t : S2048.Idx → EReal) = (V m c main_arg2 : S2048.Idx → EReal) := by
  obtain ⟨-, -, -, -, e20, -⟩ := idx_facts t
  funext y
  show V m c main_arg2 (((cfg0.win 2).blk t).view.emb y) = V m c main_arg2 y
  refine congrArg _ (funext fun a => Fin.ext ?_)
  match a with
  | ⟨0, _⟩ => show win0_2.index t (0 : Fin 1) * 2048 + 1 * (y 0).val = (y 0).val; rw [e20]; omega
theorem ablk_eq (c : Dev nD) (t : Fin cfg0.N) :
    (iblk m c 3 t : S16x2048.Idx → EReal) = (V m c main_arg3 : S16x2048.Idx → EReal) := by
  obtain ⟨-, -, -, -, -, e30, e31, -⟩ := idx_facts t
  funext y
  show V m c main_arg3 (((cfg0.win 3).blk t).view.emb y) = V m c main_arg3 y
  refine congrArg _ (funext fun a => Fin.ext ?_)
  match a with
  | ⟨0, _⟩ => show win0_3.index t (0 : Fin 2) * 16 + 1 * (y 0).val = (y 0).val; rw [e30]; omega
  | ⟨1, _⟩ => show win0_3.index t (1 : Fin 2) * 2048 + 1 * (y 1).val = (y 1).val; rw [e31]; omega
theorem sblk_eq (c : Dev nD) (t : Fin cfg0.N) :
    (iblk m c 4 t : S2048x16.Idx → EReal) = (V m c main_v2 : S2048x16.Idx → EReal) := by
  obtain ⟨-, -, -, -, -, -, -, e40, e41, -⟩ := idx_facts t
  funext y
  show V m c main_v2 (((cfg0.win 4).blk t).view.emb y) = V m c main_v2 y
  refine congrArg _ (funext fun a => Fin.ext ?_)
  match a with
  | ⟨0, _⟩ => show win0_4.index t (0 : Fin 2) * 2048 + 1 * (y 0).val = (y 0).val; rw [e40]; omega
  | ⟨1, _⟩ => show win0_4.index t (1 : Fin 2) * 16 + 1 * (y 1).val = (y 1).val; rw [e41]; omega

/-- The stored block at any index of the block: row `j 0` of the loaded block against the whole of the other operands. -/
theorem pay_at (x0 : Vec Ideal S128x2048 .f32) (x1 : Vec Ideal S2048x2048 .f32) (x2 : Vec Ideal S2048 .f32)
    (x3 : Vec Ideal S16x2048 .f32) (x4 : Vec Ideal S2048x16 .f32) (j : S128x2048.Idx) :
    k0_pay1 (F := Ideal) x0 x1 x2 x3 x4 j
      = Cert.Lora.scaledInside (fun k => x0 (ix2 (j 0 : Fin 128) k)) x1 x2 x3 x4 (j 1 : Fin 2048) := by
  obtain ⟨p, q, rfl⟩ : ∃ (p : Fin 128) (q : Fin 2048), j = ix2 p q := ⟨j 0, j 1, eq_ix2 j⟩
  exact Body.pay_apply x0 x1 x2 x3 x4 p q

/-- What the output array ends holding: `Lora.rowsResult` of the arrays as the region finds them. -/
abbrev outRows (c : Dev nD) : S8192x2048.Idx → EReal :=
  Cert.Lora.rowsResult (V m c main_v0) (V m c main_arg1) (V m c main_arg2) (V m c main_arg3) (V m c main_v2)

/-- What point `t` writes back is block `t` of `outRows`. -/
theorem flushed_eq (c : Dev nD) (t : Fin cfg0.N) :
    (dats m 0 c).flushed 5 t = ((cfg0.win 5).blk t).view.read (Elt Ideal) (outRows m c) := by
  obtain ⟨-, -, -, -, -, -, -, -, -, e50, e51⟩ := idx_facts t
  show (cfg0.win 5).cut (grid0.coords t) ((dats m 0 c).after 5 t) = _
  rw [after0_5]
  unfold out0_5
  rw [View.canon_unit_zero hz2]
  simp only [View.ld_unit_zero (S := S128x2048) hz2, View.ld_unit_zero (S := S2048x2048) hz2,
    View.ld_unit_zero (S := S2048) hz1, View.ld_unit_zero (S := S16x2048) hz2, View.ld_unit_zero (S := S2048x16) hz2]
  funext j
  refine (pay_at (iblk m c 0 t) (iblk m c 1 t) (iblk m c 2 t) (iblk m c 3 t) (iblk m c 4 t) j).trans ?_
  show Cert.Lora.scaledInside (fun k => (iblk m c 0 t : S128x2048.Idx → EReal) (ix2 (j 0 : Fin 128) k))
      (iblk m c 1 t : S2048x2048.Idx → EReal) (iblk m c 2 t : S2048.Idx → EReal) (iblk m c 3 t : S16x2048.Idx → EReal)
      (iblk m c 4 t : S2048x16.Idx → EReal) (j 1 : Fin 2048)
    = Cert.Lora.scaledInside
      (fun k => (V m c main_v0 : S8192x2048.Idx → EReal) (ix2 ((((cfg0.win 5).blk t).view.emb j) 0 : Fin 8192) k))
      (V m c main_arg1) (V m c main_arg2) (V m c main_arg3) (V m c main_v2)
      ((((cfg0.win 5).blk t).view.emb j) 1 : Fin 2048)
  have ho : (j 1 : Fin 2048) = ((((cfg0.win 5).blk t).view.emb j) 1 : Fin 2048) :=
    Fin.ext (by show (j 1).val = win0_5.index t (1 : Fin 2) * 2048 + 1 * (j 1).val; rw [e51]; omega)
  have hx : (fun k : Fin 2048 => (iblk m c 0 t : S128x2048.Idx → EReal) (ix2 (j 0 : Fin 128) k))
      = fun k => (V m c main_v0 : S8192x2048.Idx → EReal) (ix2 ((((cfg0.win 5).blk t).view.emb j) 0 : Fin 8192) k) :=
    funext fun k => xblk_apply m c t (j 0) k _
      (by show win0_5.index t (0 : Fin 2) * 128 + 1 * (j 0).val = 128 * t.val + (j 0).val; rw [e50]; omega)
  rw [hx, ← ho, wblk_eq, bblk_eq, ablk_eq, sblk_eq]

/-- An index of the output is in point `t`'s block iff each coordinate is in the block's range on its axis. -/
theorem mem_blk (t : Fin cfg0.N) (i : S8192x2048.Idx) :
    i ∈ ((cfg0.win 5).blk t).view.set ↔ ∀ a : Fin 2, win0_5.index t a * S128x2048.size a ≤ (i a).val
      ∧ (i a).val < win0_5.index t a * S128x2048.size a + S128x2048.size a := by
  show i ∈ ((View.whole main_v3).slice (win0_5.rect t)).set ↔ _
  rw [View.set_slice_whole, Rect.mem_set_unit]
  exact Iff.rfl

/-- Row `n` of the output lies in the block of point `n / 128`: the 64 blocks cover the array. -/
theorem cover (i : S8192x2048.Idx) :
    ∃ t : Fin cfg0.N, (cfg0.win 5).flush t = true ∧ i ∈ ((cfg0.win 5).blk t).view.set := by
  have hi0 : (i 0).val < 8192 := (i 0).isLt
  have hi1 : (i 1).val < 2048 := (i 1).isLt
  have hN : cfg0.N = 64 := N_0
  obtain ⟨t, ht⟩ : ∃ t : Fin cfg0.N, t.val = (i 0).val / 128 := ⟨⟨(i 0).val / 128, by rw [hN]; omega⟩, rfl⟩
  obtain ⟨-, -, -, -, -, -, -, -, -, e50, e51⟩ := idx_facts t
  refine ⟨t, flush0_5 t, ?_⟩
  rw [mem_blk]
  intro a
  match a with
  | ⟨0, _⟩ =>
    show win0_5.index t (0 : Fin 2) * 128 ≤ (i 0).val ∧ (i 0).val < win0_5.index t (0 : Fin 2) * 128 + 128
    rw [e50, ht]; omega
  | ⟨1, _⟩ =>
    show win0_5.index t (1 : Fin 2) * 2048 ≤ (i 1).val ∧ (i 1).val < win0_5.index t (1 : Fin 2) * 2048 + 2048
    rw [e51]; omega

/-- The output array after the region. -/
theorem final (c : Dev nD) : (dats m 0 c).arrAt 5 cfg0.N = outRows m c :=
  (dats m 0 c).arrAt_eq_of_cover 5 (outRows m c) (fun t _ => flushed_eq m c t) cover

/-! ## The host operations around the region -/

/-- The argument arrays as launched, each at its literal shape. -/
abbrev xArg (c : Dev nD) : S4x2048x2048.Idx → EReal := m ((c : Thread nD τ).loc main_arg0)
abbrev wArg (c : Dev nD) : S2048x2048.Idx → EReal := m ((c : Thread nD τ).loc main_arg1)
abbrev bArg (c : Dev nD) : S2048.Idx → EReal := m ((c : Thread nD τ).loc main_arg2)
abbrev aArg (c : Dev nD) : S16x2048.Idx → EReal := m ((c : Thread nD τ).loc main_arg3)
abbrev bsArg (c : Dev nD) : S2048x16.Idx → EReal := m ((c : Thread nD τ).loc main_arg4)
abbrev sArg (c : Dev nD) : S_.Idx → EReal := m ((c : Thread nD τ).loc main_arg5)

/-- The region finds the flattened input: `x` with its first two axes merged. -/
theorem rows_eq (c : Dev nD) : (V m c main_v0 : S8192x2048.Idx → EReal)
    = shapeCast S8192x2048 (xArg m c) shapeCasts_S4x2048x2048_S8192x2048 := by
  show StableHlo.after hostOps0 (fun b => m (c, b)) (Proc.devRef .tc main_v0) = _
  after_results
  rfl

/-- The region finds `B` with every entry multiplied by the scalar. -/
theorem scaled_eq (c : Dev nD) : (V m c main_v2 : S2048x16.Idx → EReal)
    = (mulf (F := Ideal) (φ := .f32) (bsArg m c) (broadcastInDim S2048x16 ![] bcast_S_S2048x16 (sArg m c))
        : S2048x16.Idx → EReal) := by
  show StableHlo.after hostOps0 (fun b => m (c, b)) (Proc.devRef .tc main_v2) = _
  after_results

/-- The program's result: the output array with its rows split back into two axes. -/
abbrev kernelResult (c : Dev nD) : S4x2048x2048.Idx → EReal :=
  shapeCast S4x2048x2048 (outRows m c) shapeCasts_S8192x2048_S4x2048x2048

/-- The host operation after the region leaves it in the result buffer. -/
theorem tail_eq (c : Dev nD) :
    Pipeline.afterTail₀ cfgs (dats m) 0 (V0 m) [hostOps1] c main_v4 = kernelResult m c := by
  unfold Pipeline.afterTail₀
  show StableHlo.after hostOps1 _ (Proc.devRef .tc main_v4) = _
  after_results
  exact congrArg (fun v : S8192x2048.Idx → EReal => shapeCast S4x2048x2048 v shapeCasts_S8192x2048_S4x2048x2048)
    ((Pipeline.withArrays_arr spec0 launch0.win.arr_inj c _ _ 5).trans (final m c))

/-- The run, read: the result buffer at `kernelResult`, the arguments unchanged. -/
theorem run : θ_run defs (onTc (τ := τ) (main (F := Ideal))) ⟨m, fun _ => 0, ρ⟩ fun r => ∀ c : Dev nD,
      r.2.mem ((c.tc : Thread nD τ).loc main_v4) = kernelResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Whole

end
-- ==== Proof.Bridge.lean ====
/-
  The kernel's result array is `Lora.result` of the arguments, for finite arguments.

  Entry `(a, t, o)` of the result is entry `(2048 a + t, o)` of the output array, whose row `2048 a + t` comes from row
  `2048 a + t` of the flattened input, that is from row `(a, t, ·)` of `x`. The scaled `B` the region finds is `B (o, r) * s`,
  so the entry is `Lora.scaledInside` with that product inside the sum; for finite `x`, `A`, `B` and `s` this is
  `Lora.scaledOutside`, the reference's entry.
-/
import proofs.«123970_j74887049773417_1_alg».proof.Proof.KernelValue

noncomputable section

open scoped BigOperators
open Idealize.ShloMosaic Idealize.ShloMosaic.TcCoe Idealize.SL.Sem Idealize.ShloMosaic.ValueIdx

namespace Cert.KernelIdeal.Whole

open Cert.KernelIdeal Cert.KernelIdeal.Gen Cert.Lora

variable (m : (ℓ : Loc nD τ sig) → Buf (Elt Ideal) ℓ)

/-- Row `2048 a + t` of the flattened input is row `(a, t, ·)` of `x`. -/
theorem rows_apply (c : Dev nD) (a : Fin 4) (t : Fin 2048) (k : Fin 2048) (n : Fin 8192)
    (hn : n.val = a.val * 2048 + t.val) :
    (V m c main_v0 : S8192x2048.Idx → EReal) (ix2 n k) = xArg m c (ix3 a t k) := by
  rw [rows_eq]
  refine shapeCast_apply _ _ _ _ ?_
  rw [Shape.rowMajor_val_three, Shape.rowMajor_val_two]
  show (a.val * 2048 + t.val) * 2048 + k.val = n.val * 2048 + k.val
  rw [hn]

/-- The scaled `B` at `(o, r)`. -/
theorem scaled_apply (c : Dev nD) :
    (V m c main_v2 : S2048x16.Idx → EReal) = fun j => bsArg m c j * sArg m c ix0 := by
  rw [scaled_eq]
  funext j
  exact congrArg (fun v : EReal => bsArg m c j * v)
    (broadcastInDim_apply _ bcast_S_S2048x16 (sArg m c) j ix0 (fun a => a.elim0))

/-- The result array is `Lora.result` of the arguments when `x`, `A`, `B` and the scalar are finite. -/
theorem kernelResult_eq (c : Dev nD) (hx : ∀ i, IsReal (xArg m c i)) (hA : ∀ i, IsReal (aArg m c i))
    (hB : ∀ i, IsReal (bsArg m c i)) (hs : IsReal (sArg m c ix0)) :
    kernelResult m c = Cert.Lora.result (xArg m c) (wArg m c) (bArg m c) (aArg m c) (bsArg m c) (sArg m c) := by
  funext i
  obtain ⟨a, t, o, rfl⟩ : ∃ (a : Fin 4) (t : Fin 2048) (o : Fin 2048), i = ix3 a t o := ⟨i 0, i 1, i 2, eq_ix3 i⟩
  have hn : a.val * 2048 + t.val < 8192 := by have := a.isLt; have := t.isLt; omega
  have e1 : kernelResult m c (ix3 a t o)
      = rowsResult (V m c main_v0) (V m c main_arg1) (V m c main_arg2) (V m c main_arg3) (V m c main_v2)
          (ix2 (⟨a.val * 2048 + t.val, hn⟩ : Fin 8192) o) := by
    refine shapeCast_apply _ _ _ _ ?_
    rw [Shape.rowMajor_val_two, Shape.rowMajor_val_three]
    rfl
  have ex : (fun k : Fin 2048 => (V m c main_v0 : S8192x2048.Idx → EReal) (ix2 (⟨a.val * 2048 + t.val, hn⟩ : Fin 8192) k))
      = fun k => xArg m c (ix3 a t k) :=
    funext fun k => rows_apply m c a t k _ rfl
  rw [e1, rowsResult_apply, result_apply, ex, scaled_apply, V_main_arg1, V_main_arg2, V_main_arg3]
  exact scaledInside_eq_scaledOutside _ _ _ _ _ _ _ (fun k => hx _) hA hB hs

end Cert.KernelIdeal.Whole

end
-- ==== Proof.RefSide.lean ====
/-
  The reference, read entry by entry at the ideal instance.

  The reference contracts the last axis of `x` against the rows of `W` and adds the bias along the last axis; it contracts
  the same axis against the rows of `A`, contracts the 16 results against the rows of `B`, multiplies by the scalar, and adds.
  Read at `(a, t, o)` each product is a sum over its contracted coordinate, and the whole is `Lora.scaledOutside` of row
  `(a, t, ·)` of `x` at output column `o`: the array `Lora.result`.
-/
import proofs.«123970_j74887049773417_1_alg».proof.Defs
import proofs.«123970_j74887049773417_1_alg».proof.Proof.Gen.ReferenceIdeal.Run
import proofs.«123970_j74887049773417_1_alg».proof.Proof.Gen.ReferenceIdeal.Read
import proofs.«123970_j74887049773417_1_alg».proof.Proof.Spec

noncomputable section

open scoped BigOperators

namespace Cert.ReferenceIdeal.RefValue

open Idealize.ShloMosaic Idealize.ShloMosaic.ValueIdx Cert.ReferenceIdeal Cert.ReferenceIdeal.Read

/-- The operand indices of the first product at `(a, t, o)` and contraction position `k`: row `(a, t, ·)` of `x`, -/
theorem lidx0 (a : Fin 4) (t o k : Fin 2048) : lidx_main_v0 (ix3 a t o) k = ix3 a t k :=
  funext fun c => Fin.ext (by match c with | ⟨0, _⟩ => rfl | ⟨1, _⟩ => rfl | ⟨2, _⟩ => rfl)
/-- row `o` of `W`. -/
theorem ridx0 (a : Fin 4) (t o k : Fin 2048) : ridx_main_v0 (ix3 a t o) k = ix2 o k :=
  funext fun c => Fin.ext (by match c with | ⟨0, _⟩ => rfl | ⟨1, _⟩ => rfl)
/-- The bias is read at the last coordinate. -/
theorem bidx (a : Fin 4) (t o : Fin 2048) : idx_main_v1 (idx_main_v2 (ix3 a t o)) = ix1 o :=
  funext fun c => Fin.ext (by match c with | ⟨0, _⟩ => rfl)
/-- The last product at `(a, t, o)` and `r`: entry `(a, t, r)` of the 16 intermediate results, -/
theorem lidx5 (a : Fin 4) (t o : Fin 2048) (r : Fin 16) : lidx_main_v5 (ix3 a t o) r = ix3 a t r :=
  funext fun c => Fin.ext (by match c with | ⟨0, _⟩ => rfl | ⟨1, _⟩ => rfl | ⟨2, _⟩ => rfl)
/-- entry `(o, r)` of `B`. -/
theorem ridx5 (a : Fin 4) (t o : Fin 2048) (r : Fin 16) : ridx_main_v5 (ix3 a t o) r = ix2 o r :=
  funext fun c => Fin.ext (by match c with | ⟨0, _⟩ => rfl | ⟨1, _⟩ => rfl)
/-- The middle product at `(a, t, r)` and `k`: row `(a, t, ·)` of `x`, -/
theorem lidx4 (a : Fin 4) (t : Fin 2048) (r : Fin 16) (k : Fin 2048) :
    lidx_main_v4 (ix3 a t r) k = ix3 a t k :=
  funext fun c => Fin.ext (by match c with | ⟨0, _⟩ => rfl | ⟨1, _⟩ => rfl | ⟨2, _⟩ => rfl)
/-- row `r` of `A`. -/
theorem ridx4 (a : Fin 4) (t : Fin 2048) (r : Fin 16) (k : Fin 2048) :
    ridx_main_v4 (ix3 a t r) k = ix2 r k :=
  funext fun c => Fin.ext (by match c with | ⟨0, _⟩ => rfl | ⟨1, _⟩ => rfl)

/-- The reference's result array is `Lora.result` of its arguments. -/
theorem ref_eq (x0 : FVec Ideal S4x2048x2048 .f32) (x1 : FVec Ideal S2048x2048 .f32) (x2 : FVec Ideal S2048 .f32)
    (x3 : FVec Ideal S16x2048 .f32) (x4 : FVec Ideal S2048x16 .f32) (x5 : FVec Ideal S_ .f32) :
    val_main_v8 (F := Ideal) x0 x1 x2 x3 x4 x5 = Cert.Lora.result x0 x1 x2 x3 x4 x5 := by
  funext i
  obtain ⟨a, t, o, rfl⟩ : ∃ (a : Fin 4) (t : Fin 2048) (o : Fin 2048), i = ix3 a t o := ⟨i 0, i 1, i 2, eq_ix3 i⟩
  rw [val_main_v8_apply, val_main_v3_apply, val_main_v7_apply, val_main_v0_apply, val_main_v2_apply, val_main_v1_apply,
    val_main_v5_apply, val_main_v6_apply, Cert.Lora.result_apply]
  simp only [lidx0, ridx0, bidx, lidx5, ridx5, val_main_v4_apply, lidx4, ridx4]
  rfl

end Cert.ReferenceIdeal.RefValue

end
-- ==== Proof.Finite.lean ====
/-
  What the precondition says: every entry of every float input is a real number.

  The precondition is the conjunction, input by input, of "every entry has absolute value below +∞". On the extended
  reals `max x (-x) < ⊤` excludes both infinities, so `x` is the image of a real number. Only the inputs that meet the
  distributive step are read back here: `x`, `A`, `B` and the scalar.
-/
import proofs.«123970_j74887049773417_1_alg».proof.Pre_finite_inputs
import proofs.«123970_j74887049773417_1_alg».proof.Proof.Spec
import Idealize.ShloMosaic.Lib.ReduceAll
import Idealize.ShloMosaic.PureOps.Ideal.Laws

noncomputable section

namespace Cert.Pre_finite_inputs.Finite

open Idealize.ShloMosaic Cert.Pre_finite_inputs Cert.Lora

instance : Subsingleton S_.Idx := ⟨fun a b => funext fun d => d.elim0⟩

/-- An extended real whose absolute value compares below the float pattern of +∞ is a real number. -/
theorem isReal_of_lt_inf (x : EReal)
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  unfold Ideal.cmp at h
  have hlt : max x (-x) < ⊤ := by
    by_contra hn
    simp [hn] at h
  rw [max_lt_iff] at hlt
  induction x using EReal.rec with
  | bot => simp at hlt
  | coe a => exact ⟨a, rfl⟩
  | top => simp at hlt

variable [Facts]

/-- Under the precondition `x`, `A`, `B` and the scalar hold real numbers only. -/
theorem reals_of_pre (x0 : FVec Ideal S4x2048x2048 .f32) (x1 : FVec Ideal S2048x2048 .f32) (x2 : FVec Ideal S2048 .f32)
    (x3 : FVec Ideal S16x2048 .f32) (x4 : FVec Ideal S2048x16 .f32) (x5 : FVec Ideal S_ .f32)
    (h : fn (F := Ideal) x0 x1 x2 x3 x4 x5 = fun _ => 1#1) :
    (∀ i, IsReal (x0 i)) ∧ (∀ i, IsReal (x3 i)) ∧ (∀ i, IsReal (x4 i)) ∧ IsReal (x5 ValueIdx.ix0) := by
  have h0 := congrFun h ValueIdx.ix0
  unfold fn fn_part1 at h0
  simp only [Idealize.ShloMosaic.andi, IntOp.andi_eq_one] at h0
  obtain ⟨⟨⟨⟨⟨hx, -⟩, -⟩, hA⟩, hB⟩, hs⟩ := h0
  exact ⟨fun i => isReal_of_lt_inf _ (Host.reduce_andi_all _ _ _ _ _ hx i),
    fun i => isReal_of_lt_inf _ (Host.reduce_andi_all _ _ _ _ _ hA i),
    fun i => isReal_of_lt_inf _ (Host.reduce_andi_all _ _ _ _ _ hB i),
    isReal_of_lt_inf _ (Host.reduce_andi_all _ _ _ _ _ hs ValueIdx.ix0)⟩

end Cert.Pre_finite_inputs.Finite

end
-- ==== Proof.lean ====
/-
  A linear layer with a low-rank update: `out = x Wᵀ + b + ((x Aᵀ) Bᵀ) · s`.

  The kernel flattens the batch and sequence axes of `x` into 8192 rows, multiplies `B` by the scalar `s` beforehand, and
  for each block of 128 rows forms the three products, with `B s` in place of `B`; the reference keeps the three axes and
  multiplies the finished low-rank product by `s`. At the ideal instance a change of float format is the identity and a
  matrix product into a zero accumulator is a plain sum, so entry `(a, t, o)` is on the kernel's side
  `Lora.scaledInside` and on the reference's side `Lora.scaledOutside` of row `(a, t, ·)` of `x`. They differ by
  pulling `s` out of a sum of 16 terms, which is sound because the precondition makes `x`, `A`, `B` and `s` finite
  (`Lora.scaledInside_eq_scaledOutside`).

  The modules: Spec (the two forms of an entry and the law between them), LibMatmulNT (a product with the right operand
  transposed, read at an index), Payload (the kernel body's stored block at an index), KernelValue (from blocks to the
  output array and through the host operations), Bridge (the kernel's result is `Lora.result` for finite arguments),
  RefSide (the reference's result is `Lora.result`), Finite (the precondition read back).
-/
import proofs.«123970_j74887049773417_1_alg».proof.Defs
import proofs.«123970_j74887049773417_1_alg».proof.Proof.Gen.Kernel
import proofs.«123970_j74887049773417_1_alg».proof.Proof.Gen.Kernel.Skeleton
import proofs.«123970_j74887049773417_1_alg».proof.Proof.Gen.Kernel.Launch
import proofs.«123970_j74887049773417_1_alg».proof.Proof.Gen.Kernel.Points
import proofs.«123970_j74887049773417_1_alg».proof.Proof.Gen.Kernel.Frame
import proofs.«123970_j74887049773417_1_alg».proof.Proof.Gen.KernelIdeal
import proofs.«123970_j74887049773417_1_alg».proof.Proof.Gen.KernelIdeal.Skeleton
import proofs.«123970_j74887049773417_1_alg».proof.Proof.Gen.KernelIdeal.Launch
import proofs.«123970_j74887049773417_1_alg».proof.Proof.Gen.KernelIdeal.Points
import proofs.«123970_j74887049773417_1_alg».proof.Proof.Gen.KernelIdeal.Frame
import proofs.«123970_j74887049773417_1_alg».proof.Proof.Gen.ReferenceIdeal
import proofs.«123970_j74887049773417_1_alg».proof.Proof.Gen.ReferenceIdeal.Run
import proofs.«123970_j74887049773417_1_alg».proof.Proof.Gen.ReferenceIdeal.Read
import proofs.«123970_j74887049773417_1_alg».proof.Proof.Gen.Pre_finite_inputs
import proofs.«123970_j74887049773417_1_alg».proof.Proof.Bridge
import proofs.«123970_j74887049773417_1_alg».proof.Proof.RefSide
import proofs.«123970_j74887049773417_1_alg».proof.Proof.Finite
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ
/-- So does its idealization. -/
theorem frame_kernelIdeal : Cert.frame_KernelIdeal := fun m ρ _ => Cert.KernelIdeal.Gen.frame m ρ
/-- The reference is host operations only: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with `Lora.result` of the shared arguments in their result buffers. -/
theorem algebraic : Cert.algebraic_KernelIdeal_ReferenceIdeal := by
  intro m ρ m' ρ' hpre hagree
  refine ⟨fun c => Cert.KernelIdeal.Whole.kernelResult m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hA, hB, hs⟩ := Cert.Pre_finite_inputs.Finite.reals_of_pre _ _ _ _ _ _ (hpre c)
  rw [Cert.ReferenceIdeal.Read.val_main_v8_eq, Cert.ReferenceIdeal.RefValue.ref_eq, (hagree c).1, (hagree c).2.1,
    (hagree c).2.2.1, (hagree c).2.2.2.1, (hagree c).2.2.2.2.1, (hagree c).2.2.2.2.2]
  exact (Cert.KernelIdeal.Whole.kernelResult_eq m c hx hA hB hs).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
